-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2 : Shape := ⟨2, ![8192, 2]⟩
abbrev S_ : Shape := ⟨0, ![]⟩

class Facts : Prop where
  bcast_S_S8192x2 : S_.BroadcastsInDim S8192x2 (![] : Fin 0 → Fin S8192x2.rank)
  reducesTo_S8192x2_S_d0_1 : S8192x2.ReducesTo [0, 1] S_
  h_S_ : 0 < S_.numel

variable [Facts]

def fn_part1 {F : FTy → Type} [FloatOps F] (main_v13 : IVec S_ 1) (main_v16 : IVec S8192x2 1) : IVec S_ 1 :=
  let main_c_5 : IVec S_ 1 := constantI S_ 1 1#1
  let main_v17 : IVec S_ 1 := (fun x v => Host.reduce IntOp.andi x v reducesTo_S8192x2_S_d0_1 h_S_) main_v16 main_c_5
  let main_v18 : IVec S_ 1 := andi main_v13 main_v17
  main_v18

def fn {F : FTy → Type} [FloatOps F] (main_arg0 : FVec F S8192x2 .f32) (main_arg1 : FVec F S8192x2 .f32) (main_arg2 : FVec F S8192x2 .f32) (main_arg3 : FVec F S8192x2 .f32) : IVec S_ 1 :=
  let main_v0 : FVec F S8192x2 .f32 := Host.absf main_arg0
  let main_cst : FVec F S_ .f32 := constant S_ .f32 0x7F800000#32
  let main_v1 : FVec F S8192x2 .f32 := broadcastInDim S8192x2 ![] bcast_S_S8192x2 main_cst
  let main_v2 : IVec S8192x2 1 := cmpf .olt main_v0 main_v1
  let main_c : IVec S_ 1 := constantI S_ 1 1#1
  let main_v3 : IVec S_ 1 := (fun x v => Host.reduce IntOp.andi x v reducesTo_S8192x2_S_d0_1 h_S_) main_v2 main_c
  let main_v4 : FVec F S8192x2 .f32 := Host.absf main_arg1
  let main_cst_0 : FVec F S_ .f32 := constant S_ .f32 0x7F800000#32
  let main_v5 : FVec F S8192x2 .f32 := broadcastInDim S8192x2 ![] bcast_S_S8192x2 main_cst_0
  let main_v6 : IVec S8192x2 1 := cmpf .olt main_v4 main_v5
  let main_c_1 : IVec S_ 1 := constantI S_ 1 1#1
  let main_v7 : IVec S_ 1 := (fun x v => Host.reduce IntOp.andi x v reducesTo_S8192x2_S_d0_1 h_S_) main_v6 main_c_1
  let main_v8 : IVec S_ 1 := andi main_v3 main_v7
  let main_v9 : FVec F S8192x2 .f32 := Host.absf main_arg2
  let main_cst_2 : FVec F S_ .f32 := constant S_ .f32 0x7F800000#32
  let main_v10 : FVec F S8192x2 .f32 := broadcastInDim S8192x2 ![] bcast_S_S8192x2 main_cst_2
  let main_v11 : IVec S8192x2 1 := cmpf .olt main_v9 main_v10
  let main_c_3 : IVec S_ 1 := constantI S_ 1 1#1
  let main_v12 : IVec S_ 1 := (fun x v => Host.reduce IntOp.andi x v reducesTo_S8192x2_S_d0_1 h_S_) main_v11 main_c_3
  let main_v13 : IVec S_ 1 := andi main_v8 main_v12
  let main_v14 : FVec F S8192x2 .f32 := Host.absf main_arg3
  let main_cst_4 : FVec F S_ .f32 := constant S_ .f32 0x7F800000#32
  let main_v15 : FVec F S8192x2 .f32 := broadcastInDim S8192x2 ![] bcast_S_S8192x2 main_cst_4
  let main_v16 : IVec S8192x2 1 := cmpf .olt main_v14 main_v15
  fn_part1 (F := F) main_v13 main_v16
-- ==== Kernel.lean ====
abbrev S8192x2 : Shape := ⟨2, ![8192, 2]⟩
abbrev S512x2 : Shape := ⟨2, ![512, 2]⟩
abbrev S512x1 : Shape := ⟨2, ![512, 1]⟩

abbrev nBuf : Space → Nat
  | .hbm => 5
  | .vmem => 10
  | .smem => 0
  | _ => 0

abbrev bufTy : (tb : Table) → Fin (tcTables nBuf tb) → BufTy
  | .hbm, ⟨0, _⟩ => ⟨S8192x2, .f32⟩
  | .hbm, ⟨1, _⟩ => ⟨S8192x2, .f32⟩
  | .hbm, ⟨2, _⟩ => ⟨S8192x2, .f32⟩
  | .hbm, ⟨3, _⟩ => ⟨S8192x2, .f32⟩
  | .hbm, ⟨4, _⟩ => ⟨S8192x2, .f32⟩
  | .local _ .vmem, ⟨0, _⟩ => ⟨S512x2, .f32⟩
  | .local _ .vmem, ⟨1, _⟩ => ⟨S512x2, .f32⟩
  | .local _ .vmem, ⟨2, _⟩ => ⟨S512x2, .f32⟩
  | .local _ .vmem, ⟨3, _⟩ => ⟨S512x2, .f32⟩
  | .local _ .vmem, ⟨4, _⟩ => ⟨S512x2, .f32⟩
  | .local _ .vmem, ⟨5, _⟩ => ⟨S512x2, .f32⟩
  | .local _ .vmem, ⟨6, _⟩ => ⟨S512x2, .f32⟩
  | .local _ .vmem, ⟨7, _⟩ => ⟨S512x2, .f32⟩
  | .local _ .vmem, ⟨8, _⟩ => ⟨S512x2, .f32⟩
  | .local _ .vmem, ⟨9, _⟩ => ⟨S512x2, .f32⟩
  | _, _ => ⟨S8192x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S512x2_S512x1_0_0 : ∀ a, (![0, 0] : Fin 2 → Nat) a + S512x1.size a ≤ S512x2.size a
  h_S512x1 : 0 < S512x1.numel
  inb_S512x2_S512x1_0_1 : ∀ a, (![0, 1] : Fin 2 → Nat) a + S512x1.size a ≤ S512x2.size a
  concatenates_S512x1_S512x1_S512x2_d1 : Shape.Concatenates [S512x1, S512x1] S512x2 1
  inb_S512x2_S512x2_0_0 : ∀ a, (![0, 0] : Fin 2 → Nat) a + S512x2.size a ≤ S512x2.size a
  h_S512x2 : 0 < S512x2.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S8192x2.size a
  hwx0_0 : ∀ i : grid0.Coords, EltTy.bits .f32 = 32 ∨ (Rect.block (s := S8192x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2.size a ≤ S8192x2.size a
  hwx0_1 : ∀ i : grid0.Coords, EltTy.bits .f32 = 32 ∨ (Rect.block (s := S8192x2) S512x2.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x2.size a ≤ S8192x2.size a
  hwx0_2 : ∀ i : grid0.Coords, EltTy.bits .f32 = 32 ∨ (Rect.block (s := S8192x2) S512x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x2.size a ≤ S8192x2.size a
  hwx0_3 : ∀ i : grid0.Coords, EltTy.bits .f32 = 32 ∨ (Rect.block (s := S8192x2) S512x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x2.size a ≤ S8192x2.size a
  hwx0_4 : ∀ i : grid0.Coords, EltTy.bits .f32 = 32 ∨ (Rect.block (s := S8192x2) S512x2.size (cc0_transform_4 i) (hinb0_4 i)).WholeWords (EltTy.packing .f32)

variable [Facts₀]

abbrev win0_0 : Pipeline.Window sig grid0 :=
  Pipeline.Window.ofSpec (Memref.whole main_arg0) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S512x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2 : Shape := ⟨2, ![8192, 2]⟩
abbrev S8192x1 : Shape := ⟨2, ![8192, 1]⟩
abbrev S8192 : Shape := ⟨1, ![8192]⟩
abbrev S_ : Shape := ⟨0, ![]⟩

abbrev nBuf : Space → Nat
  | .hbm => 136
  | .vmem => 0
  | .smem => 0
  | _ => 0

abbrev hbmTy0_0 (i : Nat) : BufTy := match i % 128 with
  | 0 => ⟨S8192x2, .f32⟩
  | 1 => ⟨S8192x2, .f32⟩
  | 2 => ⟨S8192x2, .f32⟩
  | 3 => ⟨S8192x2, .f32⟩
  | 4 => ⟨S8192x1, .f32⟩
  | 5 => ⟨S8192, .f32⟩
  | 6 => ⟨S8192x1, .f32⟩
  | 7 => ⟨S8192, .f32⟩
  | 8 => ⟨S_, .f32⟩
  | 9 => ⟨S8192, .f32⟩
  | 10 => ⟨S8192, .i1⟩
  | 11 => ⟨S8192, .f32⟩
  | 12 => ⟨S_, .f32⟩
  | 13 => ⟨S8192, .f32⟩
  | 14 => ⟨S8192, .f32⟩
  | 15 => ⟨S8192, .f32⟩
  | 16 => ⟨S8192, .f32⟩
  | 17 => ⟨S8192, .f32⟩
  | 18 => ⟨S_, .f32⟩
  | 19 => ⟨S8192, .f32⟩
  | 20 => ⟨S8192, .f32⟩
  | 21 => ⟨S_, .f32⟩
  | 22 => ⟨S8192, .f32⟩
  | 23 => ⟨S8192, .f32⟩
  | 24 => ⟨S_, .f32⟩
  | 25 => ⟨S8192, .f32⟩
  | 26 => ⟨S8192, .f32⟩
  | 27 => ⟨S8192, .f32⟩
  | 28 => ⟨S_, .f32⟩
  | 29 => ⟨S8192, .f32⟩
  | 30 => ⟨S8192, .i1⟩
  | 31 => ⟨S8192, .f32⟩
  | 32 => ⟨S_, .f32⟩
  | 33 => ⟨S8192, .f32⟩
  | 34 => ⟨S8192, .f32⟩
  | 35 => ⟨S8192, .f32⟩
  | 36 => ⟨S8192, .f32⟩
  | 37 => ⟨S8192, .f32⟩
  | 38 => ⟨S_, .f32⟩
  | 39 => ⟨S8192, .f32⟩
  | 40 => ⟨S8192, .f32⟩
  | 41 => ⟨S_, .f32⟩
  | 42 => ⟨S8192, .f32⟩
  | 43 => ⟨S8192, .f32⟩
  | 44 => ⟨S_, .f32⟩
  | 45 => ⟨S8192, .f32⟩
  | 46 => ⟨S8192, .f32⟩
  | 47 => ⟨S8192, .f32⟩
  | 48 => ⟨S8192, .f32⟩
  | 49 => ⟨S_, .f32⟩
  | 50 => ⟨S8192, .f32⟩
  | 51 => ⟨S8192, .i1⟩
  | 52 => ⟨S_, .f32⟩
  | 53 => ⟨S8192, .f32⟩
  | 54 => ⟨S8192, .i1⟩
  | 55 => ⟨S8192, .i1⟩
  | 56 => ⟨S8192, .i1⟩
  | 57 => ⟨S8192, .f32⟩
  | 58 => ⟨S8192, .f32⟩
  | 59 => ⟨S8192, .i1⟩
  | 60 => ⟨S_, .f32⟩
  | 61 => ⟨S_, .f32⟩
  | 62 => ⟨S8192, .f32⟩
  | 63 => ⟨S8192, .f32⟩
  | 64 => ⟨S_, .f32⟩
  | 65 => ⟨S_, .f32⟩
  | 66 => ⟨S8192, .f32⟩
  | 67 => ⟨S8192, .f32⟩
  | 68 => ⟨S_, .f32⟩
  | 69 => ⟨S8192, .f32⟩
  | 70 => ⟨S8192, .i1⟩
  | 71 => ⟨S8192, .f32⟩
  | 72 => ⟨S8192, .f32⟩
  | 73 => ⟨S8192, .f32⟩
  | 74 => ⟨S8192, .f32⟩
  | 75 => ⟨S_, .f32⟩
  | 76 => ⟨S_, .f32⟩
  | 77 => ⟨S8192, .f32⟩
  | 78 => ⟨S8192, .f32⟩
  | 79 => ⟨S8192, .f32⟩
  | 80 => ⟨S8192, .f32⟩
  | 81 => ⟨S8192, .f32⟩
  | 82 => ⟨S8192, .f32⟩
  | 83 => ⟨S_, .f32⟩
  | 84 => ⟨S_, .f32⟩
  | 85 => ⟨S8192, .f32⟩
  | 86 => ⟨S8192, .f32⟩
  | 87 => ⟨S8192x1, .f32⟩
  | 88 => ⟨S8192, .f32⟩
  | 89 => ⟨S8192, .f32⟩
  | 90 => ⟨S8192x1, .f32⟩
  | 91 => ⟨S8192, .f32⟩
  | 92 => ⟨S8192, .f32⟩
  | 93 => ⟨S8192, .f32⟩
  | 94 => ⟨S8192x1, .f32⟩
  | 95 => ⟨S8192, .f32⟩
  | 96 => ⟨S8192, .f32⟩
  | 97 => ⟨S8192x1, .f32⟩
  | 98 => ⟨S8192, .f32⟩
  | 99 => ⟨S8192, .f32⟩
  | 100 => ⟨S8192, .f32⟩
  | 101 => ⟨S_, .f32⟩
  | 102 => ⟨S8192, .f32⟩
  | 103 => ⟨S8192, .f32⟩
  | 104 => ⟨S8192x1, .f32⟩
  | 105 => ⟨S8192, .f32⟩
  | 106 => ⟨S8192, .f32⟩
  | 107 => ⟨S_, .f32⟩
  | 108 => ⟨S8192, .f32⟩
  | 109 => ⟨S8192, .f32⟩
  | 110 => ⟨S8192x1, .f32⟩
  | 111 => ⟨S8192, .f32⟩
  | 112 => ⟨S8192, .f32⟩
  | 113 => ⟨S8192, .f32⟩
  | 114 => ⟨S8192, .f32⟩
  | 115 => ⟨S_, .f32⟩
  | 116 => ⟨S8192, .f32⟩
  | 117 => ⟨S8192, .f32⟩
  | 118 => ⟨S8192x1, .f32⟩
  | 119 => ⟨S8192, .f32⟩
  | 120 => ⟨S8192, .f32⟩
  | 121 => ⟨S_, .f32⟩
  | 122 => ⟨S8192, .f32⟩
  | 123 => ⟨S8192, .f32⟩
  | 124 => ⟨S8192x1, .f32⟩
  | 125 => ⟨S8192, .f32⟩
  | 126 => ⟨S8192, .f32⟩
  | 127 => ⟨S8192, .f32⟩
  | _ => ⟨S8192x2, .f32⟩

abbrev hbmTy0_1 (i : Nat) : BufTy := match i % 128 with
  | 0 => ⟨S8192, .f32⟩
  | 1 => ⟨S8192, .i1⟩
  | 2 => ⟨S8192, .f32⟩
  | 3 => ⟨S8192, .i1⟩
  | 4 => ⟨S8192, .f32⟩
  | 5 => ⟨S8192x1, .f32⟩
  | 6 => ⟨S8192x1, .f32⟩
  | 7 => ⟨S8192x2, .f32⟩
  | _ => ⟨S8192x2, .f32⟩

abbrev hbmTy (i : Nat) : BufTy := match i / 128 with
  | 0 => hbmTy0_0 i
  | 1 => hbmTy0_1 i
  | _ => ⟨S8192x2, .f32⟩

abbrev bufTy : (tb : Table) → Fin (tcTables nBuf tb) → BufTy
  | .hbm, ⟨i, _⟩ => hbmTy i
  | _, _ => ⟨S8192x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_9 : Ref sig .tc := ⟨.hbm, 49, rfl⟩
abbrev main_v35 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_11 : Ref sig .tc := ⟨.hbm, 60, rfl⟩
abbrev main_call2_v0 : Ref sig .tc := ⟨.hbm, 61, rfl⟩
abbrev main_call2_v1 : Ref sig .tc := ⟨.hbm, 62, rfl⟩
abbrev main_v44 : Ref sig .tc := ⟨.hbm, 63, rfl⟩
abbrev main_cst_12 : Ref sig .tc := ⟨.hbm, 64, rfl⟩
abbrev main_call3_v0 : Ref sig .tc := ⟨.hbm, 65, rfl⟩
abbrev main_call3_v1 : Ref sig .tc := ⟨.hbm, 66, rfl⟩
abbrev main_v45 : Ref sig .tc := ⟨.hbm, 67, rfl⟩
abbrev main_cst_13 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_cst_14 : Ref sig .tc := ⟨.hbm, 75, rfl⟩
abbrev main_call8_v0 : Ref sig .tc := ⟨.hbm, 76, rfl⟩
abbrev main_call8_v1 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_15 : Ref sig .tc := ⟨.hbm, 83, rfl⟩
abbrev main_call9_v0 : Ref sig .tc := ⟨.hbm, 84, rfl⟩
abbrev main_call9_v1 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_16 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_17 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_cst_18 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_19 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩

abbrev nD : Nat := 1
abbrev τ : Topo := Topo.v7x

variable {F : FTy → Type} [FloatOps F]

class Facts₀ : Prop where
  slices_S8192x2_S8192x1_0_0 : S8192x2.Slices ![0, 0] S8192x1
  shapeCasts_S8192x1_S8192 : S8192x1.ShapeCasts S8192
  slices_S8192x2_S8192x1_0_1 : S8192x2.Slices ![0, 1] S8192x1
  bcast_S_S8192 : S_.BroadcastsInDim S8192 (![] : Fin 0 → Fin S8192.rank)
  bcast_S8192_S8192x1_0 : S8192.BroadcastsInDim S8192x1 (![0] : Fin 1 → Fin S8192x1.rank)
  concatenates_S8192x1_S8192x1_S8192x2_d1 : Shape.Concatenates [S8192x1, S8192x1] S8192x2 1

variable [Facts₀]

class Facts : Prop extends Facts₀ where

variable [Facts]
-- ==== Proof.SpuStep.lean ====
/-
  The interval step of one SPU neuron, as scalar functions on the extended reals.

  A neuron has an input interval [l, u]. SPU(x) is x² − ½ on x ≥ 0 and σ(−x) − 1 below zero. The chord through
  (l, SPU l) and (u, SPU u) has slope (SPU u − SPU l) / (u − l); by the signs of l and u the neuron is negative
  (u ≤ 0), positive (l ≥ 0) or crossing (neither), which decides which of the two linear bounds takes the chord's
  slope; where the chord falls the two ends swap roles. One backward-substitution step through a diagonal layer with
  slopes (s0, s1), shifts (h0, h1) and bounds (b0, b1) gives a candidate lower and upper bound, kept only where
  it is tighter than the neuron's own. Every quantity below is one row's; the array function `rowBounds` lays the two
  results of row r side by side in columns 0 and 1.
-/
import Idealize.ShloMosaic.PureOps.Ideal
import Idealize.ShloMosaic.PureOps.IdealRules
import Idealize.ShloMosaic.Lib.ValueIdx
import Idealize.ShloMosaic.Lib.KernelVsHost

noncomputable section

namespace Cert.SpuStep

open Idealize.ShloMosaic Idealize.ShloMosaic.ValueIdx

/-- The four constants of the computation, as the words both programs spell: 0, ½, 1 and −½. -/
def zero : Ideal .f32 := FloatOps.ofBits .f32 0x00000000#32
def half : Ideal .f32 := FloatOps.ofBits .f32 0x3F000000#32
def one : Ideal .f32 := FloatOps.ofBits .f32 0x3F800000#32
def negHalf : Ideal .f32 := FloatOps.ofBits .f32 0xBF000000#32

/-- SPU(x): x² − ½ where x ≥ 0, σ(−x) − 1 elsewhere, the sigmoid's argument written 0 − x. -/
def spu (x : Ideal .f32) : Ideal .f32 :=
  Scalar.select (FloatOps.cmpf .oge x zero) (FloatOps.subf (FloatOps.mulf x x) half)
    (FloatOps.subf (FloatOps.logistic (FloatOps.subf zero x)) one)

/-- The chord's slope (SPU u − SPU l) / (u − l). -/
def chord (l u : Ideal .f32) : Ideal .f32 :=
  FloatOps.divf (FloatOps.subf (spu u) (spu l)) (FloatOps.subf u l)

/-- u ≤ 0: the whole interval is on the sigmoid branch. -/
def isNeg (u : Ideal .f32) : BitVec 1 := FloatOps.cmpf .ole u zero
/-- l ≥ 0: the whole interval is on the parabola. -/
def isPos (l : Ideal .f32) : BitVec 1 := FloatOps.cmpf .oge l zero
/-- Neither: the interval crosses zero. -/
def isCross (l u : Ideal .f32) : BitVec 1 := IntOp.xori (IntOp.ori (isNeg u) (isPos l)) 1#1
/-- The chord falls: the two ends swap roles. -/
def falls (l u : Ideal .f32) : BitVec 1 := FloatOps.cmpf .olt (chord l u) zero

/-- The slope of the lower linear bound: the chord's on a negative neuron, 0 otherwise. -/
def slopeLo (l u : Ideal .f32) : Ideal .f32 := Scalar.select (isNeg u) (chord l u) zero
/-- The slope of the upper linear bound: the chord's on a positive or crossing neuron, 0 otherwise. -/
def slopeUp (l u : Ideal .f32) : Ideal .f32 := Scalar.select (IntOp.ori (isPos l) (isCross l u)) (chord l u) zero

/-- The smaller and the larger of SPU's two end values, and the end each is taken at. -/
def valLo (l u : Ideal .f32) : Ideal .f32 := Scalar.select (falls l u) (spu u) (spu l)
def valUp (l u : Ideal .f32) : Ideal .f32 := Scalar.select (falls l u) (spu l) (spu u)
def endLo (l u : Ideal .f32) : Ideal .f32 := Scalar.select (falls l u) u l
def endUp (l u : Ideal .f32) : Ideal .f32 := Scalar.select (falls l u) l u

/-- The neuron's own lower bound: SPU's minimum −½ when the interval crosses zero. -/
def floorLo (l u : Ideal .f32) : Ideal .f32 := Scalar.select (isCross l u) negHalf (valLo l u)

/-- The intercepts of the two linear bounds. -/
def shiftLo (l u : Ideal .f32) : Ideal .f32 :=
  Scalar.select (isCross l u) negHalf (FloatOps.subf (valLo l u) (FloatOps.mulf (slopeLo l u) (endLo l u)))
def shiftUp (l u : Ideal .f32) : Ideal .f32 :=
  FloatOps.subf (valUp l u) (FloatOps.mulf (slopeUp l u) (endUp l u))

/-- One backward-substitution step of the lower bound: the slope's positive part meets the previous lower bound b0, its
    negative part the previous upper bound b1. -/
def backLo (l u s0 h0 b0 b1 : Ideal .f32) : Ideal .f32 :=
  FloatOps.addf
    (FloatOps.addf (FloatOps.mulf (FloatOps.maximumf (FloatOps.mulf (slopeLo l u) s0) zero) b0)
      (FloatOps.mulf (FloatOps.minimumf (FloatOps.mulf (slopeLo l u) s0) zero) b1))
    (FloatOps.addf (FloatOps.mulf (slopeLo l u) h0) (shiftLo l u))

/-- The same for the upper bound, the roles of b0 and b1 exchanged. -/
def backUp (l u s1 h1 b0 b1 : Ideal .f32) : Ideal .f32 :=
  FloatOps.addf
    (FloatOps.addf (FloatOps.mulf (FloatOps.maximumf (FloatOps.mulf (slopeUp l u) s1) zero) b1)
      (FloatOps.mulf (FloatOps.minimumf (FloatOps.mulf (slopeUp l u) s1) zero) b0))
    (FloatOps.addf (FloatOps.mulf (slopeUp l u) h1) (shiftUp l u))

/-- The lower result: the substituted bound where it is above the neuron's own. -/
def outLo (l u s0 h0 b0 b1 : Ideal .f32) : Ideal .f32 :=
  Scalar.select (FloatOps.cmpf .ogt (backLo l u s0 h0 b0 b1) (floorLo l u)) (backLo l u s0 h0 b0 b1) (floorLo l u)

/-- The upper result: the substituted bound where it is below the neuron's own. -/
def outUp (l u s1 h1 b0 b1 : Ideal .f32) : Ideal .f32 :=
  Scalar.select (FloatOps.cmpf .olt (backUp l u s1 h1 b0 b1) (valUp l u)) (backUp l u s1 h1 b0 b1) (valUp l u)

/-- The whole result: row r holds (outLo, outUp) of row r of the four argument arrays. -/
def rowBounds (bounds slopes shifts lastb : (⟨2, ![8192, 2]⟩ : Shape).Idx → Ideal .f32) :
    (⟨2, ![8192, 2]⟩ : Shape).Idx → Ideal .f32 := fun i =>
  if (i 1).val = 0 then
    outLo (bounds (ix2 (i 0) 0)) (bounds (ix2 (i 0) 1)) (slopes (ix2 (i 0) 0)) (shifts (ix2 (i 0) 0))
      (lastb (ix2 (i 0) 0)) (lastb (ix2 (i 0) 1))
  else
    outUp (bounds (ix2 (i 0) 0)) (bounds (ix2 (i 0) 1)) (slopes (ix2 (i 0) 1)) (shifts (ix2 (i 0) 1))
      (lastb (ix2 (i 0) 0)) (lastb (ix2 (i 0) 1))

/-- At an index of column 0 the result is row (k 0)'s lower bound, -/
theorem rowBounds_of_col0 (bounds slopes shifts lastb : (⟨2, ![8192, 2]⟩ : Shape).Idx → Ideal .f32)
    (k : (⟨2, ![8192, 2]⟩ : Shape).Idx) (hk : (k 1).val = 0) :
    rowBounds bounds slopes shifts lastb k
      = outLo (bounds (ix2 (k 0) 0)) (bounds (ix2 (k 0) 1)) (slopes (ix2 (k 0) 0)) (shifts (ix2 (k 0) 0))
          (lastb (ix2 (k 0) 0)) (lastb (ix2 (k 0) 1)) := if_pos hk

/-- and at an index of column 1 its upper bound. -/
theorem rowBounds_of_col1 (bounds slopes shifts lastb : (⟨2, ![8192, 2]⟩ : Shape).Idx → Ideal .f32)
    (k : (⟨2, ![8192, 2]⟩ : Shape).Idx) (hk : (k 1).val = 1) :
    rowBounds bounds slopes shifts lastb k
      = outUp (bounds (ix2 (k 0) 0)) (bounds (ix2 (k 0) 1)) (slopes (ix2 (k 0) 1)) (shifts (ix2 (k 0) 1))
          (lastb (ix2 (k 0) 0)) (lastb (ix2 (k 0) 1)) := if_neg (by rw [hk]; decide)

/-! ## The two spellings in which the programs differ -/

/-- The word 0x3F800000 denotes 1. -/
theorem one_eq : one = (1 : EReal) := IdealRules.sign_bit.ideal_onePat .f32

/-- The word 0 denotes 0. -/
theorem zero_eq : zero = (0 : EReal) := Ideal.ofBits_zero_f32

/-- The sigmoid of −x written out as 1 / (1 + e^(−(−x))), the negation applied twice, is the sigmoid of 0 − x. -/
theorem logistic_spelt (x : Ideal .f32) :
    FloatOps.hostDivf one (FloatOps.addf one (FloatOps.hostUnary .exp (FloatOps.hostNegf (FloatOps.hostNegf x))))
      = FloatOps.logistic (FloatOps.subf zero x) := by
  show Ideal.div one (one + Ideal.exp (-(-(x : EReal)))) = Ideal.div 1 (1 + Ideal.exp (-(zero - (x : EReal))))
  rw [one_eq, zero_eq, zero_sub]

/-- SPU with the sigmoid spelt out. -/
theorem spu_spelt (x : Ideal .f32) :
    Scalar.select (FloatOps.cmpf .oge x zero) (FloatOps.subf (FloatOps.mulf x x) half)
      (FloatOps.subf (FloatOps.hostDivf one (FloatOps.addf one (FloatOps.hostUnary .exp (FloatOps.hostNegf (FloatOps.hostNegf x))))) one)
      = spu x := by
  rw [logistic_spelt]; rfl

/-- "Neither negative nor positive" with the complement written as a negation. -/
theorem isCross_not (l u : Ideal .f32) : ~~~(IntOp.ori (isNeg u) (isPos l)) = isCross l u :=
  (xori_one_eq_not _).symm

end Cert.SpuStep

end
-- ==== Proof.KernelRows.lean ====
/-
  The kernel, read row by row. Grid point t works on rows 512·t … 512·t + 511: it loads the two columns of each of the
  four argument blocks as 512×1 vectors, computes on them elementwise, and stores the two result columns side by side.
  So what point t writes back at (p, 0), (p, 1) is the lower and upper bound of row p of its blocks (SpuStep), the
  sixteen blocks tile the 8192 rows, and the result array is the row-by-row step of the four argument arrays.
-/
import proofs.«181603_j37254546326064_1_alg».proof.Proof.Gen.KernelIdeal.Value
import proofs.«181603_j37254546326064_1_alg».proof.Proof.SpuStep

set_option maxRecDepth 16384

noncomputable section

namespace Cert.KernelIdeal.RowValue

open Cert.KernelIdeal Cert.KernelIdeal.Gen Cert.KernelIdeal.Value Cert.SpuStep
open Idealize.ShloMosaic Idealize.ShloMosaic.TcCoe Idealize.ShloMosaic.ValueIdx Idealize.SL.Sem
open Idealize.ShloMosaic.Pipeline (Dat)

/-! ## One block: the two stored columns are the scalar step of each row -/

/-- The first stored column: with u, l, s0, b0, b1, h0 the six loaded columns it reads, element j is the lower bound
    of their elements j. -/
theorem col_lo (P0 P1 P2 P3 P4 P5 P6 P7 : Vec Ideal S512x1 .f32) (j : S512x1.Idx) :
    Cat4_0 P0 P1 P2 P3 P4 P5 P6 P7 ⟨0, by decide⟩ j = outLo (P1 j) (P0 j) (P2 j) (P5 j) (P3 j) (P4 j) := rfl

/-- The second stored column: the upper bound, from u, l, s1, h1, b0, b1. -/
theorem col_up (P0 P1 P2 P3 P4 P5 P6 P7 : Vec Ideal S512x1 .f32) (j : S512x1.Idx) :
    Cat4_0 P0 P1 P2 P3 P4 P5 P6 P7 ⟨1, by decide⟩ j = outUp (P1 j) (P0 j) (P6 j) (P7 j) (P3 j) (P4 j) := rfl

/-- Row p of a loaded column 0 is the block's entry (p, 0), -/
theorem idx_col0 (p : Fin 512) : r0_0.idx (ix2 p (0 : Fin 1)) = ix2 p (0 : Fin 2) :=
  funext fun a => Fin.ext (by
    match a with
    | ⟨0, _⟩ => show 0 + 1 * p.val = p.val; omega
    | ⟨1, _⟩ => rfl)

/-- and of a loaded column 1 its entry (p, 1). -/
theorem idx_col1 (p : Fin 512) : r0_1.idx (ix2 p (0 : Fin 1)) = ix2 p (1 : Fin 2) :=
  funext fun a => Fin.ext (by
    match a with
    | ⟨0, _⟩ => show 0 + 1 * p.val = p.val; omega
    | ⟨1, _⟩ => rfl)

/-- The stored block's entry (p, q) comes from row p of the column vectors. -/
theorem row_of (p : Fin 512) (q : Fin 2) : ix4_0 (ix2 p q) = ix2 p (0 : Fin 1) :=
  funext fun a => by match a with | ⟨0, _⟩ => rfl | ⟨1, _⟩ => rfl

/-- What the body leaves in the output block at (p, 0): row p's lower bound. -/
theorem block_lo (x0 x1 x2 x3 : Vec Ideal S512x2 .f32) (p : Fin 512) :
    out0_4 x0 x1 x2 x3 (ix2 p ⟨0, by decide⟩)
      = outLo (x0 (ix2 p 0)) (x0 (ix2 p 1)) (x1 (ix2 p 0)) (x2 (ix2 p 0)) (x3 (ix2 p 0)) (x3 (ix2 p 1)) := by
  unfold out0_4
  refine (canon4_eq (View.ld x0 r0_1) (View.ld x0 r0_0) (View.ld x1 r0_0) (View.ld x3 r0_0) (View.ld x3 r0_1)
    (View.ld x2 r0_0) (View.ld x1 r0_1) (View.ld x2 r0_1) (ix2 p ⟨0, by decide⟩)).trans ?_
  show Cat4_0 (View.ld x0 r0_1) (View.ld x0 r0_0) (View.ld x1 r0_0) (View.ld x3 r0_0) (View.ld x3 r0_1)
    (View.ld x2 r0_0) (View.ld x1 r0_1) (View.ld x2 r0_1) ⟨0, by decide⟩ (ix4_0 (ix2 p ⟨0, by decide⟩)) = _
  rw [row_of, col_lo]
  show outLo (x0 (r0_0.idx (ix2 p (0 : Fin 1)))) (x0 (r0_1.idx (ix2 p (0 : Fin 1)))) (x1 (r0_0.idx (ix2 p (0 : Fin 1))))
    (x2 (r0_0.idx (ix2 p (0 : Fin 1)))) (x3 (r0_0.idx (ix2 p (0 : Fin 1)))) (x3 (r0_1.idx (ix2 p (0 : Fin 1)))) = _
  rw [idx_col0, idx_col1]

/-- What the body leaves in the output block at (p, 1): row p's upper bound. -/
theorem block_up (x0 x1 x2 x3 : Vec Ideal S512x2 .f32) (p : Fin 512) :
    out0_4 x0 x1 x2 x3 (ix2 p ⟨1, by decide⟩)
      = outUp (x0 (ix2 p 0)) (x0 (ix2 p 1)) (x1 (ix2 p 1)) (x2 (ix2 p 1)) (x3 (ix2 p 0)) (x3 (ix2 p 1)) := by
  unfold out0_4
  refine (canon4_eq (View.ld x0 r0_1) (View.ld x0 r0_0) (View.ld x1 r0_0) (View.ld x3 r0_0) (View.ld x3 r0_1)
    (View.ld x2 r0_0) (View.ld x1 r0_1) (View.ld x2 r0_1) (ix2 p ⟨1, by decide⟩)).trans ?_
  show Cat4_0 (View.ld x0 r0_1) (View.ld x0 r0_0) (View.ld x1 r0_0) (View.ld x3 r0_0) (View.ld x3 r0_1)
    (View.ld x2 r0_0) (View.ld x1 r0_1) (View.ld x2 r0_1) ⟨1, by decide⟩ (ix4_0 (ix2 p ⟨1, by decide⟩)) = _
  rw [row_of, col_up]
  show outUp (x0 (r0_0.idx (ix2 p (0 : Fin 1)))) (x0 (r0_1.idx (ix2 p (0 : Fin 1)))) (x1 (r0_1.idx (ix2 p (0 : Fin 1))))
    (x2 (r0_1.idx (ix2 p (0 : Fin 1)))) (x3 (r0_0.idx (ix2 p (0 : Fin 1)))) (x3 (r0_1.idx (ix2 p (0 : Fin 1)))) = _
  rw [idx_col0, idx_col1]

/-! ## The blocks of the arrays -/

variable (m : (ℓ : Loc nD τ sig) → Buf (Elt Ideal) ℓ) (ρ : Dev nD → PrngReg)

/-- At every grid point the four input windows sit at the output window's row block, and every window's column block
    is 0 (decided over the sixteen points). -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = win0_4.index t (0 : Fin 2) ∧ win0_2.index t (1 : Fin 2) = 0
    ∧ win0_3.index t (0 : Fin 2) = win0_4.index t (0 : Fin 2) ∧ win0_3.index t (1 : Fin 2) = 0
    ∧ win0_4.index t (1 : Fin 2) = 0 ∧ win0_4.index t (0 : Fin 2) ≤ 15 :=
  (by decide +kernel : ∀ t : Fin grid0.N, _)

/-- Every row block is some point's. -/
theorem idx_onto : ∀ q0 : Fin 16, ∃ t : Fin cfg0.N, win0_4.index t = ![q0.val, 0] :=
  (by decide +kernel : ∀ q0 : Fin 16, ∃ t : Fin grid0.N, win0_4.index t = ![q0.val, 0])

/-! Entry (p, q) of an input block at point t is the array's entry at row 512·(row block) + p, column q. -/

theorem blk0_at (c : Dev nD) (t : Fin cfg0.N) (p : Fin 512) (q : Fin 2) (k : S8192x2.Idx)
    (h0 : (k 0).val = win0_4.index t (0 : Fin 2) * 512 + p.val) (h1 : (k 1).val = q.val) :
    iblk m c 0 t (ix2 p q) = V m c main_arg0 k := by
  show V m c main_arg0 (((cfg0.win 0).blk t).view.emb (ix2 p q)) = V m c main_arg0 k
  obtain ⟨e0, e1, -⟩ := idx_facts t
  refine congrArg _ (funext fun a => Fin.ext ?_)
  match a with
  | ⟨0, _⟩ => show win0_0.index t (0 : Fin 2) * 512 + 1 * p.val = (k 0).val; omega
  | ⟨1, _⟩ => show win0_0.index t (1 : Fin 2) * 2 + 1 * q.val = (k 1).val; omega

theorem blk1_at (c : Dev nD) (t : Fin cfg0.N) (p : Fin 512) (q : Fin 2) (k : S8192x2.Idx)
    (h0 : (k 0).val = win0_4.index t (0 : Fin 2) * 512 + p.val) (h1 : (k 1).val = q.val) :
    iblk m c 1 t (ix2 p q) = V m c main_arg1 k := by
  show V m c main_arg1 (((cfg0.win 1).blk t).view.emb (ix2 p q)) = V m c main_arg1 k
  obtain ⟨-, -, e0, e1, -⟩ := idx_facts t
  refine congrArg _ (funext fun a => Fin.ext ?_)
  match a with
  | ⟨0, _⟩ => show win0_1.index t (0 : Fin 2) * 512 + 1 * p.val = (k 0).val; omega
  | ⟨1, _⟩ => show win0_1.index t (1 : Fin 2) * 2 + 1 * q.val = (k 1).val; omega

theorem blk2_at (c : Dev nD) (t : Fin cfg0.N) (p : Fin 512) (q : Fin 2) (k : S8192x2.Idx)
    (h0 : (k 0).val = win0_4.index t (0 : Fin 2) * 512 + p.val) (h1 : (k 1).val = q.val) :
    iblk m c 2 t (ix2 p q) = V m c main_arg2 k := by
  show V m c main_arg2 (((cfg0.win 2).blk t).view.emb (ix2 p q)) = V m c main_arg2 k
  obtain ⟨-, -, -, -, e0, e1, -⟩ := idx_facts t
  refine congrArg _ (funext fun a => Fin.ext ?_)
  match a with
  | ⟨0, _⟩ => show win0_2.index t (0 : Fin 2) * 512 + 1 * p.val = (k 0).val; omega
  | ⟨1, _⟩ => show win0_2.index t (1 : Fin 2) * 2 + 1 * q.val = (k 1).val; omega

theorem blk3_at (c : Dev nD) (t : Fin cfg0.N) (p : Fin 512) (q : Fin 2) (k : S8192x2.Idx)
    (h0 : (k 0).val = win0_4.index t (0 : Fin 2) * 512 + p.val) (h1 : (k 1).val = q.val) :
    iblk m c 3 t (ix2 p q) = V m c main_arg3 k := by
  show V m c main_arg3 (((cfg0.win 3).blk t).view.emb (ix2 p q)) = V m c main_arg3 k
  obtain ⟨-, -, -, -, -, -, e0, e1, -⟩ := idx_facts t
  refine congrArg _ (funext fun a => Fin.ext ?_)
  match a with
  | ⟨0, _⟩ => show win0_3.index t (0 : Fin 2) * 512 + 1 * p.val = (k 0).val; omega
  | ⟨1, _⟩ => show win0_3.index t (1 : Fin 2) * 2 + 1 * q.val = (k 1).val; omega

/-- WHAT POINT t WRITES BACK is block t of the row-by-row step of the argument arrays. -/
theorem flushed_eq (c : Dev nD) (t : Fin cfg0.N) :
    (dats m 0 c).flushed 4 t = ((cfg0.win 4).blk t).view.read (Elt Ideal)
      (rowBounds (V m c main_arg0) (V m c main_arg1) (V m c main_arg2) (V m c main_arg3)) := by
  rw [flushed4]
  funext j
  obtain ⟨p, q, rfl⟩ : ∃ (p : Fin 512) (q : Fin 2), j = ix2 p q := ⟨j 0, j 1, eq_ix2 j⟩
  show out0_4 (iblk m c 0 t) (iblk m c 1 t) (iblk m c 2 t) (iblk m c 3 t) (ix2 p q)
    = rowBounds (V m c main_arg0) (V m c main_arg1) (V m c main_arg2) (V m c main_arg3) (((cfg0.win 4).blk t).view.emb (ix2 p q))
  obtain ⟨-, -, -, -, -, -, -, -, e41, -⟩ := idx_facts t
  have k0 : ((((cfg0.win 4).blk t).view.emb (ix2 p q)) 0).val = win0_4.index t (0 : Fin 2) * 512 + p.val := by
    show win0_4.index t (0 : Fin 2) * 512 + 1 * p.val = win0_4.index t (0 : Fin 2) * 512 + p.val; omega
  have k1 : ((((cfg0.win 4).blk t).view.emb (ix2 p q)) 1).val = q.val := by
    show win0_4.index t (1 : Fin 2) * 2 + 1 * q.val = q.val; omega
  match q with
  | ⟨0, _⟩ =>
    refine (block_lo (iblk m c 0 t) (iblk m c 1 t) (iblk m c 2 t) (iblk m c 3 t) p).trans ?_
    rw [rowBounds_of_col0 _ _ _ _ _ k1,
      blk0_at m c t p 0 (ix2 ((((cfg0.win 4).blk t).view.emb (ix2 p ⟨0, by decide⟩)) 0) 0) k0 rfl,
      blk0_at m c t p 1 (ix2 ((((cfg0.win 4).blk t).view.emb (ix2 p ⟨0, by decide⟩)) 0) 1) k0 rfl,
      blk1_at m c t p 0 (ix2 ((((cfg0.win 4).blk t).view.emb (ix2 p ⟨0, by decide⟩)) 0) 0) k0 rfl,
      blk2_at m c t p 0 (ix2 ((((cfg0.win 4).blk t).view.emb (ix2 p ⟨0, by decide⟩)) 0) 0) k0 rfl,
      blk3_at m c t p 0 (ix2 ((((cfg0.win 4).blk t).view.emb (ix2 p ⟨0, by decide⟩)) 0) 0) k0 rfl,
      blk3_at m c t p 1 (ix2 ((((cfg0.win 4).blk t).view.emb (ix2 p ⟨0, by decide⟩)) 0) 1) k0 rfl]
  | ⟨1, _⟩ =>
    refine (block_up (iblk m c 0 t) (iblk m c 1 t) (iblk m c 2 t) (iblk m c 3 t) p).trans ?_
    rw [rowBounds_of_col1 _ _ _ _ _ k1,
      blk0_at m c t p 0 (ix2 ((((cfg0.win 4).blk t).view.emb (ix2 p ⟨1, by decide⟩)) 0) 0) k0 rfl,
      blk0_at m c t p 1 (ix2 ((((cfg0.win 4).blk t).view.emb (ix2 p ⟨1, by decide⟩)) 0) 1) k0 rfl,
      blk1_at m c t p 1 (ix2 ((((cfg0.win 4).blk t).view.emb (ix2 p ⟨1, by decide⟩)) 0) 1) k0 rfl,
      blk2_at m c t p 1 (ix2 ((((cfg0.win 4).blk t).view.emb (ix2 p ⟨1, by decide⟩)) 0) 1) k0 rfl,
      blk3_at m c t p 0 (ix2 ((((cfg0.win 4).blk t).view.emb (ix2 p ⟨1, by decide⟩)) 0) 0) k0 rfl,
      blk3_at m c t p 1 (ix2 ((((cfg0.win 4).blk t).view.emb (ix2 p ⟨1, by decide⟩)) 0) 1) k0 rfl]

/-- An index of the array is in point t's block iff each coordinate is in the block's range on its axis. -/
theorem mem_blk (t : Fin cfg0.N) (i : S8192x2.Idx) :
    i ∈ ((cfg0.win 4).blk t).view.set ↔ ∀ a : Fin 2, win0_4.index t a * S512x2.size a ≤ (i a).val ∧ (i a).val < win0_4.index t a * S512x2.size a + S512x2.size a := by
  show i ∈ ((View.whole main_v0).slice (win0_4.rect t)).set ↔ _
  rw [View.set_slice_whole, Rect.mem_set_unit]
  exact Iff.rfl

/-- The sixteen blocks tile the array: row r is in the block of point r / 512. -/
theorem covered (i : S8192x2.Idx) :
    ∃ t : Fin cfg0.N, (cfg0.win 4).flush t = true ∧ i ∈ ((cfg0.win 4).blk t).view.set := by
  have hi0 : (i 0).val < 8192 := (i 0).isLt
  have hi1 : (i 1).val < 2 := (i 1).isLt
  obtain ⟨t, ht⟩ := idx_onto ⟨(i 0).val / 512, by omega⟩
  have q0 : win0_4.index t (0 : Fin 2) = (i 0).val / 512 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 2 ≤ (i 1).val ∧ (i 1).val < win0_4.index t (1 : Fin 2) * 2 + 2; omega

/-- THE RESULT ARRAY after the run: the row-by-row step of the argument arrays. -/
theorem final (c : Dev nD) :
    (dats m 0 c).arrAt 4 cfg0.N = rowBounds (m ((c : Thread nD τ).loc main_arg0)) (m ((c : Thread nD τ).loc main_arg1))
      (m ((c : Thread nD τ).loc main_arg2)) (m ((c : Thread nD τ).loc main_arg3)) :=
  (dats m 0 c).arrAt_eq_of_cover 4 _ (fun t _ => flushed_eq m c t) covered

/-- The kernel's run: it ends with the result array at the row-by-row step and the arguments unchanged. -/
theorem run : θ_run defs (onTc (τ := τ) (main (F := Ideal))) ⟨m, fun _ => 0, ρ⟩ fun r => ∀ c : Dev nD,
      r.2.mem ((c : Thread nD τ).loc main_v0) = rowBounds (m ((c : Thread nD τ).loc main_arg0)) (m ((c : Thread nD τ).loc main_arg1))
        (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.RowValue

end
-- ==== Proof.RefRows.lean ====
/-
  The reference, read row by row. It slices each argument array into its two columns as vectors over the 8192 rows,
  computes on those vectors elementwise, and lays the two result vectors side by side again. Element r of each of
  its vectors is therefore one of the scalar quantities of row r (SpuStep), and the result at (r, 0), (r, 1) is row r's
  lower and upper bound. The reference spells the sigmoid out as 1 / (1 + e^(−(−x))) and "crossing" with a negation;
  both spellings are brought to the scalar step's own.
-/
import proofs.«181603_j37254546326064_1_alg».proof.Proof.Gen.ReferenceIdeal.Read
import proofs.«181603_j37254546326064_1_alg».proof.Proof.SpuStep

noncomputable section

namespace Cert.ReferenceIdeal.RowRead

open Cert.ReferenceIdeal Cert.ReferenceIdeal.Gen Cert.ReferenceIdeal.Read Cert.SpuStep
open Idealize.ShloMosaic Idealize.ShloMosaic.TcCoe Idealize.ShloMosaic.ValueIdx Idealize.SL.Sem Idealize.ShloMosaic.StableHlo

/-! ## The columns: a slice to one column, reshaped to a vector, read at row r -/

theorem v1_at (x : (⟨S8192x2, .f32⟩ : BufTy).Contents (Elt Ideal)) (r : Fin 8192) :
    val_main_v1 (F := Ideal) x (ix1 r) = x (ix2 r 0) := by
  rw [val_main_v1_apply, val_main_v0_apply]
  exact congrArg x (funext fun a => Fin.ext (by
    match a with
    | ⟨0, _⟩ => show r.val / 1 = r.val; omega
    | ⟨1, _⟩ => rfl))

theorem v3_at (x : (⟨S8192x2, .f32⟩ : BufTy).Contents (Elt Ideal)) (r : Fin 8192) :
    val_main_v3 (F := Ideal) x (ix1 r) = x (ix2 r 1) := by
  rw [val_main_v3_apply, val_main_v2_apply]
  exact congrArg x (funext fun a => Fin.ext (by
    match a with
    | ⟨0, _⟩ => show r.val / 1 = r.val; omega
    | ⟨1, _⟩ => rfl))

theorem v59_at (x : (⟨S8192x2, .f32⟩ : BufTy).Contents (Elt Ideal)) (r : Fin 8192) :
    val_main_v59 (F := Ideal) x (ix1 r) = x (ix2 r 1) := by
  rw [val_main_v59_apply, val_main_v58_apply]
  exact congrArg x (funext fun a => Fin.ext (by
    match a with
    | ⟨0, _⟩ => show r.val / 1 = r.val; omega
    | ⟨1, _⟩ => rfl))

theorem v62_at (x : (⟨S8192x2, .f32⟩ : BufTy).Contents (Elt Ideal)) (r : Fin 8192) :
    val_main_v62 (F := Ideal) x (ix1 r) = x (ix2 r 1) := by
  rw [val_main_v62_apply, val_main_v61_apply]
  exact congrArg x (funext fun a => Fin.ext (by
    match a with
    | ⟨0, _⟩ => show r.val / 1 = r.val; omega
    | ⟨1, _⟩ => rfl))

theorem v66_at (x : (⟨S8192x2, .f32⟩ : BufTy).Contents (Elt Ideal)) (r : Fin 8192) :
    val_main_v66 (F := Ideal) x (ix1 r) = x (ix2 r 0) := by
  rw [val_main_v66_apply, val_main_v65_apply]
  exact congrArg x (funext fun a => Fin.ext (by
    match a with
    | ⟨0, _⟩ => show r.val / 1 = r.val; omega
    | ⟨1, _⟩ => rfl))

theorem v69_at (x : (⟨S8192x2, .f32⟩ : BufTy).Contents (Elt Ideal)) (r : Fin 8192) :
    val_main_v69 (F := Ideal) x (ix1 r) = x (ix2 r 0) := by
  rw [val_main_v69_apply, val_main_v68_apply]
  exact congrArg x (funext fun a => Fin.ext (by
    match a with
    | ⟨0, _⟩ => show r.val / 1 = r.val; omega
    | ⟨1, _⟩ => rfl))

theorem v75_at (x : (⟨S8192x2, .f32⟩ : BufTy).Contents (Elt Ideal)) (r : Fin 8192) :
    val_main_v75 (F := Ideal) x (ix1 r) = x (ix2 r 0) := by
  rw [val_main_v75_apply, val_main_v74_apply]
  exact congrArg x (funext fun a => Fin.ext (by
    match a with
    | ⟨0, _⟩ => show r.val / 1 = r.val; omega
    | ⟨1, _⟩ => rfl))

theorem v80_at (x : (⟨S8192x2, .f32⟩ : BufTy).Contents (Elt Ideal)) (r : Fin 8192) :
    val_main_v80 (F := Ideal) x (ix1 r) = x (ix2 r 1) := by
  rw [val_main_v80_apply, val_main_v79_apply]
  exact congrArg x (funext fun a => Fin.ext (by
    match a with
    | ⟨0, _⟩ => show r.val / 1 = r.val; omega
    | ⟨1, _⟩ => rfl))

theorem v87_at (x : (⟨S8192x2, .f32⟩ : BufTy).Contents (Elt Ideal)) (r : Fin 8192) :
    val_main_v87 (F := Ideal) x (ix1 r) = x (ix2 r 1) := by
  rw [val_main_v87_apply, val_main_v86_apply]
  exact congrArg x (funext fun a => Fin.ext (by
    match a with
    | ⟨0, _⟩ => show r.val / 1 = r.val; omega
    | ⟨1, _⟩ => rfl))

theorem v92_at (x : (⟨S8192x2, .f32⟩ : BufTy).Contents (Elt Ideal)) (r : Fin 8192) :
    val_main_v92 (F := Ideal) x (ix1 r) = x (ix2 r 0) := by
  rw [val_main_v92_apply, val_main_v91_apply]
  exact congrArg x (funext fun a => Fin.ext (by
    match a with
    | ⟨0, _⟩ => show r.val / 1 = r.val; omega
    | ⟨1, _⟩ => rfl))

/-! ## The broadcast constants -/

theorem k_v4 (i : S8192.Idx) : val_main_v4 (F := Ideal) i = zero := by
  rw [val_main_v4_apply, val_main_cst_apply]; rfl
theorem k_v7 (i : S8192.Idx) : val_main_v7 (F := Ideal) i = half := by
  rw [val_main_v7_apply, val_main_cst_0_apply]; rfl
theorem k_v12 (i : S8192.Idx) : val_main_v12 (F := Ideal) i = one := by
  rw [val_main_v12_apply, val_main_cst_1_apply]; rfl
theorem k_v14 (i : S8192.Idx) : val_main_v14 (F := Ideal) i = one := by
  rw [val_main_v14_apply, val_main_cst_2_apply]; rfl
theorem k_v16 (i : S8192.Idx) : val_main_v16 (F := Ideal) i = one := by
  rw [val_main_v16_apply, val_main_cst_3_apply]; rfl
theorem k_v19 (i : S8192.Idx) : val_main_v19 (F := Ideal) i = zero := by
  rw [val_main_v19_apply, val_main_cst_4_apply]; rfl
theorem k_v22 (i : S8192.Idx) : val_main_v22 (F := Ideal) i = half := by
  rw [val_main_v22_apply, val_main_cst_5_apply]; rfl
theorem k_v27 (i : S8192.Idx) : val_main_v27 (F := Ideal) i = one := by
  rw [val_main_v27_apply, val_main_cst_6_apply]; rfl
theorem k_v29 (i : S8192.Idx) : val_main_v29 (F := Ideal) i = one := by
  rw [val_main_v29_apply, val_main_cst_7_apply]; rfl
theorem k_v31 (i : S8192.Idx) : val_main_v31 (F := Ideal) i = one := by
  rw [val_main_v31_apply, val_main_cst_8_apply]; rfl
theorem k_v35 (i : S8192.Idx) : val_main_v35 (F := Ideal) i = zero := by
  rw [val_main_v35_apply, val_main_cst_9_apply]; rfl
theorem k_v37 (i : S8192.Idx) : val_main_v37 (F := Ideal) i = zero := by
  rw [val_main_v37_apply, val_main_cst_10_apply]; rfl
theorem k_call2_v1 (i : S8192.Idx) : val_main_call2_v1 (F := Ideal) i = zero := by
  rw [val_main_call2_v1_apply, val_main_call2_v0_apply, val_main_cst_11_apply]; rfl
theorem k_call3_v1 (i : S8192.Idx) : val_main_call3_v1 (F := Ideal) i = zero := by
  rw [val_main_call3_v1_apply, val_main_call3_v0_apply, val_main_cst_12_apply]; rfl
theorem k_v46 (i : S8192.Idx) : val_main_v46 (F := Ideal) i = zero := by
  rw [val_main_v46_apply, val_main_cst_13_apply]; rfl
theorem k_call8_v1 (i : S8192.Idx) : val_main_call8_v1 (F := Ideal) i = negHalf := by
  rw [val_main_call8_v1_apply, val_main_call8_v0_apply, val_main_cst_14_apply]; rfl
theorem k_call9_v1 (i : S8192.Idx) : val_main_call9_v1 (F := Ideal) i = negHalf := by
  rw [val_main_call9_v1_apply, val_main_call9_v0_apply, val_main_cst_15_apply]; rfl
theorem k_v72 (i : S8192.Idx) : val_main_v72 (F := Ideal) i = zero := by
  rw [val_main_v72_apply, val_main_cst_16_apply]; rfl
theorem k_v77 (i : S8192.Idx) : val_main_v77 (F := Ideal) i = zero := by
  rw [val_main_v77_apply, val_main_cst_17_apply]; rfl
theorem k_v84 (i : S8192.Idx) : val_main_v84 (F := Ideal) i = zero := by
  rw [val_main_v84_apply, val_main_cst_18_apply]; rfl
theorem k_v89 (i : S8192.Idx) : val_main_v89 (F := Ideal) i = zero := by
  rw [val_main_v89_apply, val_main_cst_19_apply]; rfl

/-! ## The vectors, element by element -/

variable (x0 x1 x2 x3 : (⟨S8192x2, .f32⟩ : BufTy).Contents (Elt Ideal))

/-- SPU of the lower end. -/
theorem spu_l (i : S8192.Idx) : val_main_v18 (F := Ideal) x0 i = spu (val_main_v1 (F := Ideal) x0 i) := by
  simp only [val_main_v18_apply, val_main_v5_apply, val_main_v8_apply, val_main_v6_apply, val_main_v17_apply, val_main_v15_apply, val_main_v13_apply, val_main_v11_apply, val_main_v10_apply, val_main_v9_apply, k_v4, k_v7, k_v12, k_v14, k_v16]
  exact spu_spelt _

/-- SPU of the upper end. -/
theorem spu_u (i : S8192.Idx) : val_main_v33 (F := Ideal) x0 i = spu (val_main_v3 (F := Ideal) x0 i) := by
  simp only [val_main_v33_apply, val_main_v20_apply, val_main_v23_apply, val_main_v21_apply, val_main_v32_apply, val_main_v30_apply, val_main_v28_apply, val_main_v26_apply, val_main_v25_apply, val_main_v24_apply, k_v19, k_v22, k_v27, k_v29, k_v31]
  exact spu_spelt _

/-- The chord's slope. -/
theorem chord_at (i : S8192.Idx) :
    val_main_v42 (F := Ideal) x0 i = chord (val_main_v1 (F := Ideal) x0 i) (val_main_v3 (F := Ideal) x0 i) := by
  simp only [val_main_v42_apply, val_main_v41_apply, val_main_v34_apply, spu_l, spu_u]
  rfl

theorem isNeg_at (i : S8192.Idx) : val_main_v36 (F := Ideal) x0 i = isNeg (val_main_v3 (F := Ideal) x0 i) := by
  simp only [val_main_v36_apply, k_v35]; rfl

theorem isPos_at (i : S8192.Idx) : val_main_v38 (F := Ideal) x0 i = isPos (val_main_v1 (F := Ideal) x0 i) := by
  simp only [val_main_v38_apply, k_v37]; rfl

theorem isCross_at (i : S8192.Idx) :
    val_main_v40 (F := Ideal) x0 i = isCross (val_main_v1 (F := Ideal) x0 i) (val_main_v3 (F := Ideal) x0 i) := by
  simp only [val_main_v40_apply, val_main_v39_apply, isNeg_at, isPos_at]
  exact isCross_not _ _

theorem falls_at (i : S8192.Idx) :
    val_main_v47 (F := Ideal) x0 i = falls (val_main_v1 (F := Ideal) x0 i) (val_main_v3 (F := Ideal) x0 i) := by
  simp only [val_main_v47_apply, chord_at, k_v46]; rfl

theorem slopeUp_at (i : S8192.Idx) :
    val_main_v44 (F := Ideal) x0 i = slopeUp (val_main_v1 (F := Ideal) x0 i) (val_main_v3 (F := Ideal) x0 i) := by
  simp only [val_main_v44_apply, val_main_v43_apply, isPos_at, isCross_at, chord_at, k_call2_v1]; rfl

theorem slopeLo_at (i : S8192.Idx) :
    val_main_v45 (F := Ideal) x0 i = slopeLo (val_main_v1 (F := Ideal) x0 i) (val_main_v3 (F := Ideal) x0 i) := by
  simp only [val_main_v45_apply, isNeg_at, chord_at, k_call3_v1]; rfl

theorem valLo_at (i : S8192.Idx) :
    val_main_v48 (F := Ideal) x0 i = valLo (val_main_v1 (F := Ideal) x0 i) (val_main_v3 (F := Ideal) x0 i) := by
  simp only [val_main_v48_apply, falls_at, spu_l, spu_u]; rfl

theorem valUp_at (i : S8192.Idx) :
    val_main_v49 (F := Ideal) x0 i = valUp (val_main_v1 (F := Ideal) x0 i) (val_main_v3 (F := Ideal) x0 i) := by
  simp only [val_main_v49_apply, falls_at, spu_l, spu_u]; rfl

theorem endLo_at (i : S8192.Idx) :
    val_main_v50 (F := Ideal) x0 i = endLo (val_main_v1 (F := Ideal) x0 i) (val_main_v3 (F := Ideal) x0 i) := by
  simp only [val_main_v50_apply, falls_at]; rfl

theorem endUp_at (i : S8192.Idx) :
    val_main_v51 (F := Ideal) x0 i = endUp (val_main_v1 (F := Ideal) x0 i) (val_main_v3 (F := Ideal) x0 i) := by
  simp only [val_main_v51_apply, falls_at]; rfl

theorem floorLo_at (i : S8192.Idx) :
    val_main_v52 (F := Ideal) x0 i = floorLo (val_main_v1 (F := Ideal) x0 i) (val_main_v3 (F := Ideal) x0 i) := by
  simp only [val_main_v52_apply, isCross_at, valLo_at, k_call8_v1]; rfl

theorem shiftUp_at (i : S8192.Idx) :
    val_main_v54 (F := Ideal) x0 i = shiftUp (val_main_v1 (F := Ideal) x0 i) (val_main_v3 (F := Ideal) x0 i) := by
  simp only [val_main_v54_apply, val_main_v53_apply, valUp_at, slopeUp_at, endUp_at]; rfl

theorem shiftLo_at (i : S8192.Idx) :
    val_main_v57 (F := Ideal) x0 i = shiftLo (val_main_v1 (F := Ideal) x0 i) (val_main_v3 (F := Ideal) x0 i) := by
  simp only [val_main_v57_apply, val_main_v56_apply, val_main_v55_apply, isCross_at, valLo_at, slopeLo_at, endLo_at, k_call9_v1]; rfl

/-- The substituted lower bound. -/
theorem backLo_at (i : S8192.Idx) :
    val_main_v83 (F := Ideal) x0 x1 x2 x3 i
      = backLo (val_main_v1 (F := Ideal) x0 i) (val_main_v3 (F := Ideal) x0 i) (val_main_v66 (F := Ideal) x1 i)
          (val_main_v69 (F := Ideal) x2 i) (val_main_v75 (F := Ideal) x3 i) (val_main_v80 (F := Ideal) x3 i) := by
  simp only [val_main_v83_apply, val_main_v82_apply, val_main_v76_apply, val_main_v73_apply, val_main_v67_apply, val_main_v81_apply, val_main_v78_apply, val_main_v71_apply, val_main_v70_apply, slopeLo_at, shiftLo_at, k_v72, k_v77]; rfl

/-- The substituted upper bound. -/
theorem backUp_at (i : S8192.Idx) :
    val_main_v95 (F := Ideal) x0 x1 x2 x3 i
      = backUp (val_main_v1 (F := Ideal) x0 i) (val_main_v3 (F := Ideal) x0 i) (val_main_v59 (F := Ideal) x1 i)
          (val_main_v62 (F := Ideal) x2 i) (val_main_v92 (F := Ideal) x3 i) (val_main_v87 (F := Ideal) x3 i) := by
  simp only [val_main_v95_apply, val_main_v94_apply, val_main_v88_apply, val_main_v85_apply, val_main_v60_apply, val_main_v93_apply, val_main_v90_apply, val_main_v64_apply, val_main_v63_apply, slopeUp_at, shiftUp_at, k_v84, k_v89]; rfl

theorem outLo_at (i : S8192.Idx) :
    val_main_v97 (F := Ideal) x0 x1 x2 x3 i
      = outLo (val_main_v1 (F := Ideal) x0 i) (val_main_v3 (F := Ideal) x0 i) (val_main_v66 (F := Ideal) x1 i)
          (val_main_v69 (F := Ideal) x2 i) (val_main_v75 (F := Ideal) x3 i) (val_main_v80 (F := Ideal) x3 i) := by
  simp only [val_main_v97_apply, val_main_v96_apply, backLo_at, floorLo_at]; rfl

theorem outUp_at (i : S8192.Idx) :
    val_main_v99 (F := Ideal) x0 x1 x2 x3 i
      = outUp (val_main_v1 (F := Ideal) x0 i) (val_main_v3 (F := Ideal) x0 i) (val_main_v59 (F := Ideal) x1 i)
          (val_main_v62 (F := Ideal) x2 i) (val_main_v92 (F := Ideal) x3 i) (val_main_v87 (F := Ideal) x3 i) := by
  simp only [val_main_v99_apply, val_main_v98_apply, backUp_at, valUp_at]; rfl

/-! ## The two result vectors side by side -/

/-- The reference's result is the row-by-row step of its four arguments. -/
theorem result_eq : val_main_v102 (F := Ideal) x0 x1 x2 x3 = rowBounds x0 x1 x2 x3 := by
  funext i
  obtain ⟨r, q, rfl⟩ : ∃ (r : Fin 8192) (q : Fin 2), i = ix2 r q := ⟨i 0, i 1, eq_ix2 i⟩
  unfold val_main_v102
  match q with
  | ⟨0, _⟩ =>
    refine (concatenate_pair_apply_left (t := S8192x2) (s₁ := S8192x1) (s₂ := S8192x1) (1 : Fin 2) (val_main_v100 (F := Ideal) x0 x1 x2 x3) (val_main_v101 (F := Ideal) x0 x1 x2 x3)
      concatenates_S8192x1_S8192x1_S8192x2_d1 (ix2 r ⟨0, by decide⟩) rfl (ix2 r (0 : Fin 1))
      (fun b => by match b with | ⟨0, _⟩ => rfl | ⟨1, _⟩ => rfl)).trans ?_
    rw [val_main_v100_apply, show idx_main_v100 (ix2 r (0 : Fin 1)) = ix1 r from funext fun a => by match a with | ⟨0, _⟩ => rfl,
      outLo_at, v1_at, v3_at, v66_at, v69_at, v75_at, v80_at]
    exact (rowBounds_of_col0 x0 x1 x2 x3 (ix2 r ⟨0, by decide⟩) rfl).symm
  | ⟨1, _⟩ =>
    refine (concatenate_pair_apply_right (t := S8192x2) (s₁ := S8192x1) (s₂ := S8192x1) (1 : Fin 2) (val_main_v100 (F := Ideal) x0 x1 x2 x3) (val_main_v101 (F := Ideal) x0 x1 x2 x3)
      concatenates_S8192x1_S8192x1_S8192x2_d1 (ix2 r ⟨1, by decide⟩) rfl rfl (ix2 r (0 : Fin 1))
      (fun b hb => by match b with | ⟨0, _⟩ => rfl | ⟨1, _⟩ => exact absurd rfl hb) rfl).trans ?_
    rw [val_main_v101_apply, show idx_main_v101 (ix2 r (0 : Fin 1)) = ix1 r from funext fun a => by match a with | ⟨0, _⟩ => rfl,
      outUp_at, v1_at, v3_at, v59_at, v62_at, v92_at, v87_at]
    exact (rowBounds_of_col1 x0 x1 x2 x3 (ix2 r ⟨1, by decide⟩) rfl).symm

end Cert.ReferenceIdeal.RowRead

end
-- ==== Proof.lean ====
/-
  An SPU bound step, tiled over 8192 neurons, against its jnp reference, over the extended reals.

  Both programs compute, for each neuron r, the same scalar function of row r of four [8192, 2] arrays (SpuStep: the
  chord relaxation of SPU on [l, u] and one backward-substitution step, giving a lower and an upper bound). The kernel
  does so block by block, sixteen blocks of 512 rows, on 512×1 column vectors (KernelRows); the reference on whole
  columns as vectors over the 8192 rows (RefRows). They differ only in spelling: the kernel's sigmoid of 0 − x against
  the reference's 1 / (1 + e^(−(−x))), an exclusive-or with true against a negation. No law of arithmetic is needed
  to join them, so the finiteness of the inputs is never used. The idealization rewrote nothing, so `preserves` is trivial.
-/
import proofs.«181603_j37254546326064_1_alg».proof.Defs
import proofs.«181603_j37254546326064_1_alg».proof.Proof.Gen.Kernel
import proofs.«181603_j37254546326064_1_alg».proof.Proof.Gen.Kernel.Skeleton
import proofs.«181603_j37254546326064_1_alg».proof.Proof.Gen.Kernel.Launch
import proofs.«181603_j37254546326064_1_alg».proof.Proof.Gen.Kernel.Points
import proofs.«181603_j37254546326064_1_alg».proof.Proof.Gen.Kernel.Frame
import proofs.«181603_j37254546326064_1_alg».proof.Proof.Gen.KernelIdeal
import proofs.«181603_j37254546326064_1_alg».proof.Proof.Gen.KernelIdeal.Skeleton
import proofs.«181603_j37254546326064_1_alg».proof.Proof.Gen.KernelIdeal.Launch
import proofs.«181603_j37254546326064_1_alg».proof.Proof.Gen.KernelIdeal.Points
import proofs.«181603_j37254546326064_1_alg».proof.Proof.Gen.KernelIdeal.Frame
import proofs.«181603_j37254546326064_1_alg».proof.Proof.Gen.ReferenceIdeal
import proofs.«181603_j37254546326064_1_alg».proof.Proof.Gen.Pre_finite_inputs
import proofs.«181603_j37254546326064_1_alg».proof.Proof.Gen.KernelIdeal.Value
import proofs.«181603_j37254546326064_1_alg».proof.Proof.Gen.ReferenceIdeal.Run
import proofs.«181603_j37254546326064_1_alg».proof.Proof.Gen.ReferenceIdeal.Read
import proofs.«181603_j37254546326064_1_alg».proof.Proof.SpuStep
import proofs.«181603_j37254546326064_1_alg».proof.Proof.KernelRows
import proofs.«181603_j37254546326064_1_alg».proof.Proof.RefRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k : Cert.frame_Kernel (hKernel := Cert.Kernel.Gen.facts) (hPre_finite_inputs := Cert.Pre_finite_inputs.Gen.facts) :=
  fun m ρ _ => Cert.Kernel.Gen.frame m ρ

/-- So does the kernel read over the extended reals. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, its result forgotten. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both runs end with the result array at the row-by-row step of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.RowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v102_eq, Cert.ReferenceIdeal.RowRead.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
